-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8192x3 : Shape := ⟨2, ![8192, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8192x3 : S_.BroadcastsInDim S8192x3 (![] : Fin 0 → Fin S8192x3.rank)
  reducesTo_S8192x3_S_d0_1 : S8192x3.ReducesTo [0, 1] S_
  reducesTo_S_S_d : S_.ReducesTo [] S_

variable [Facts]

def fn {F : FTy → Type} [FloatOps F] (main_arg0 : FVec F S8x4096x3 .f32) (main_arg1 : FVec F S8192x3 .f32) (main_arg2 : FVec F S_ .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8x4096x3 : Shape := ⟨3, ![8, 4096, 3]⟩
abbrev S8192x3 : Shape := ⟨2, ![8192, 3]⟩
abbrev S_ : Shape := ⟨0, ![]⟩
abbrev S32768x3 : Shape := ⟨2, ![32768, 3]⟩
abbrev S32768x1 : Shape := ⟨2, ![32768, 1]⟩
abbrev S1024x3 : Shape := ⟨2, ![1024, 3]⟩
abbrev S2048x3 : Shape := ⟨2, ![2048, 3]⟩
abbrev S1024x1 : Shape := ⟨2, ![1024, 1]⟩
abbrev S1024 : Shape := ⟨1, ![1024]⟩
abbrev S2048 : Shape := ⟨1, ![2048]⟩
abbrev S1024x2048 : Shape := ⟨2, ![1024, 2048]⟩
abbrev S1x2048 : Shape := ⟨2, ![1, 2048]⟩
abbrev S32768 : Shape := ⟨1, ![32768]⟩
abbrev S8x4096 : Shape := ⟨2, ![8, 4096]⟩
abbrev S8 : Shape := ⟨1, ![8]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8192x3, .f32⟩
  | .hbm, ⟨2, _⟩ => ⟨S_, .f32⟩
  | .hbm, ⟨3, _⟩ => ⟨S32768x3, .f32⟩
  | .hbm, ⟨4, _⟩ => ⟨S32768x1, .f32⟩
  | .hbm, ⟨5, _⟩ => ⟨S32768, .f32⟩
  | .hbm, ⟨6, _⟩ => ⟨S32768, .f32⟩
  | .hbm, ⟨7, _⟩ => ⟨S32768, .f32⟩
  | .hbm, ⟨8, _⟩ => ⟨S32768, .f32⟩
  | .hbm, ⟨9, _⟩ => ⟨S8x4096, .f32⟩
  | .hbm, ⟨10, _⟩ => ⟨S_, .f32⟩
  | .hbm, ⟨11, _⟩ => ⟨S8, .f32⟩
  | .local _ .vmem, ⟨0, _⟩ => ⟨S1024x3, .f32⟩
  | .local _ .vmem, ⟨1, _⟩ => ⟨S1024x3, .f32⟩
  | .local _ .vmem, ⟨2, _⟩ => ⟨S2048x3, .f32⟩
  | .local _ .vmem, ⟨3, _⟩ => ⟨S2048x3, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x4096x3_S32768x3 : S8x4096x3.ShapeCasts S32768x3
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S2048x3_S2048x3_0_0 : ∀ a, (![0, 0] : Fin 2 → Nat) a + S2048x3.size a ≤ S2048x3.size a
  h_S2048x3 : 0 < S2048x3.numel
  reduces_S1024x3_S1024 : S1024x3.Reduces [1] S1024
  shapeCasts_S1024_S1024x1 : S1024.ShapeCasts S1024x1
  reduces_S2048x3_S2048 : S2048x3.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S32768x1_S32768 : S32768x1.ShapeCasts S32768
  bcast_S_S32768 : S_.BroadcastsInDim S32768 (![] : Fin 0 → Fin S32768.rank)
  shapeCasts_S32768_S8x4096 : S32768.ShapeCasts S8x4096
  reducesTo_S8x4096_S8_d1 : S8x4096.ReducesTo [1] S8
  h_S_ : 0 < S_.numel
  dot_S1024x3_S2048x3_S1024x2048_1_1_0_0_n_n_wf : DotDims.WF S1024x3 S2048x3 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S32768x3.size a
  hwx0_0 : ∀ i : grid0.Coords, EltTy.bits .f32 = 32 ∨ (Rect.block (s := S32768x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S8192x3.size a
  hwx0_1 : ∀ i : grid0.Coords, EltTy.bits .f32 = 32 ∨ (Rect.block (s := S8192x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)

variable [Facts₀]

def dot_S1024x3_S2048x3_S1024x2048_1_1_0_0_n_n : DotDims S1024x3 S2048x3 S1024x2048 where
  lhsContracting := [1]
  rhsContracting := [1]
  lhsNonContracting := [0]
  rhsNonContracting := [0]
  lhsBatch := []
  rhsBatch := []
  wf := dot_S1024x3_S2048x3_S1024x2048_1_1_0_0_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8192x3 : Shape := ⟨2, ![8192, 3]⟩
abbrev S_ : Shape := ⟨0, ![]⟩
abbrev S32768x3 : Shape := ⟨2, ![32768, 3]⟩
abbrev S32768 : Shape := ⟨1, ![32768]⟩
abbrev S32768x1 : Shape := ⟨2, ![32768, 1]⟩
abbrev S8192 : Shape := ⟨1, ![8192]⟩
abbrev S1x8192 : Shape := ⟨2, ![1, 8192]⟩
abbrev S32768x8192 : Shape := ⟨2, ![32768, 8192]⟩
abbrev S3x8192 : Shape := ⟨2, ![3, 8192]⟩
abbrev S8x4096 : Shape := ⟨2, ![8, 4096]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8192x3, .f32⟩
  | .hbm, ⟨2, _⟩ => ⟨S_, .f32⟩
  | .hbm, ⟨3, _⟩ => ⟨S32768x3, .f32⟩
  | .hbm, ⟨4, _⟩ => ⟨S32768x3, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S8192x3, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S3x8192, .f32⟩
  | .hbm, ⟨16, _⟩ => ⟨S32768x8192, .f32⟩
  | .hbm, ⟨17, _⟩ => ⟨S_, .f32⟩
  | .hbm, ⟨18, _⟩ => ⟨S32768x8192, .f32⟩
  | .hbm, ⟨19, _⟩ => ⟨S32768x8192, .f32⟩
  | .hbm, ⟨20, _⟩ => ⟨S32768x8192, .f32⟩
  | .hbm, ⟨21, _⟩ => ⟨S_, .f32⟩
  | .hbm, ⟨22, _⟩ => ⟨S32768x8192, .f32⟩
  | .hbm, ⟨23, _⟩ => ⟨S32768x8192, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S8x4096x3_S32768x3 : S8x4096x3.ShapeCasts S32768x3
  reducesTo_S32768x3_S32768_d1 : S32768x3.ReducesTo [1] S32768
  h_S_ : 0 < S_.numel
  bcast_S32768_S32768x1_0 : S32768.BroadcastsInDim S32768x1 (![0] : Fin 1 → Fin S32768x1.rank)
  reducesTo_S8192x3_S8192_d1 : S8192x3.ReducesTo [1] S8192
  bcast_S8192_S1x8192_1 : S8192.BroadcastsInDim S1x8192 (![1] : Fin 1 → Fin S1x8192.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  transposes_S8192x3_S3x8192_1_0 : S8192x3.Transposes [1, 0] S3x8192
  bcast_S_S32768x8192 : S_.BroadcastsInDim S32768x8192 (![] : Fin 0 → Fin S32768x8192.rank)
  reducesTo_S32768x8192_S32768_d1 : S32768x8192.ReducesTo [1] S32768
  shapeCasts_S32768_S8x4096 : S32768.ShapeCasts S8x4096
  bcast_S_S8x4096 : S_.BroadcastsInDim S8x4096 (![] : Fin 0 → Fin S8x4096.rank)
  reducesTo_S8x4096_S8_d1 : S8x4096.ReducesTo [1] S8
  dot_S32768x3_S3x8192_S32768x8192_1_0_0_1_n_n_wf : DotDims.WF S32768x3 S3x8192 S32768x8192 [1] [0] [0] [1] [] []

variable [Facts₀]

def dot_S32768x3_S3x8192_S32768x8192_1_0_0_1_n_n : DotDims S32768x3 S3x8192 S32768x8192 where
  lhsContracting := [1]
  rhsContracting := [0]
  lhsNonContracting := [0]
  rhsNonContracting := [1]
  lhsBatch := []
  rhsBatch := []
  wf := dot_S32768x3_S3x8192_S32768x8192_1_0_0_1_n_n_wf

class Facts : Prop extends Facts₀ where

variable [Facts]
-- ==== Proof.CaseValues.lean ====
/-
  What each control case of the body leaves behind, as values.

  The body has three cases over the column-tile coordinate: the first tile (the accumulator is reset to the starting
  word, then updated), a middle tile (updated), the last tile (updated, then copied to the output block). Read back
  through the whole scratch buffer: the first tile leaves the update applied to the reset block, a middle or last
  tile the update applied to what the tile before left; and the last tile's output block is that same updated
  accumulator, since the copy loads the scratch after the update's store covered it.
-/
import proofs.«127728_j84224308674625_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A middle tile: the scratch ends at the update of what it held (`xs0`) by the two input blocks. -/
theorem scratch_mid (c : Dev nD) (i : grid0.Coords) (arg2 : Memref sig .tc .vmem S1024x3 .f32) (harg2 : arg2.IsWhole) (arg3 : Memref sig .tc .vmem S2048x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x3 .f32) (x1 : Vec F S2048x3 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x3) hz,
    View.ld_unit_zero (S := S2048x3) hz, View.ld_unit_zero (S := S1024x1) hz]

/-- The first tile: the scratch ends at the update of the reset block. -/
theorem scratch_first (c : Dev nD) (i : grid0.Coords) (arg2 : Memref sig .tc .vmem S1024x3 .f32) (harg2 : arg2.IsWhole) (arg3 : Memref sig .tc .vmem S2048x3 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x3 .f32) (x1 : Vec F S2048x3 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x3) hz,
    View.ld_unit_zero (S := S2048x3) hz, View.ld_unit_zero (S := S1024x1) hz]

/-- The last tile: the scratch ends at the update of what it held, -/
theorem scratch_last (c : Dev nD) (i : grid0.Coords) (arg2 : Memref sig .tc .vmem S1024x3 .f32) (harg2 : arg2.IsWhole) (arg3 : Memref sig .tc .vmem S2048x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x3 .f32) (x1 : Vec F S2048x3 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x3) hz,
    View.ld_unit_zero (S := S2048x3) hz, View.ld_unit_zero (S := S1024x1) hz]

/-- and the output block at the same value: the copy reads the scratch back after the update's store. -/
theorem out_last (c : Dev nD) (i : grid0.Coords) (arg2 : Memref sig .tc .vmem S1024x3 .f32) (harg2 : arg2.IsWhole) (arg3 : Memref sig .tc .vmem S2048x3 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x3 .f32) (x1 : Vec F S2048x3 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readCov_unit_zero (S := S1024x1) _ hz, View.readAt_eq_ld, harg2.read_unread, harg3.read_unread, harg5.read_unread,
    View.ld_unit_zero (S := S1024x3) hz, View.ld_unit_zero (S := S2048x3) hz, View.ld_unit_zero (S := S1024x1) hz]

end Cert.KernelIdeal.CaseValues

end
-- ==== Proof.BlockRows.lean ====
/-
  A window's block at a grid point, read as rows of the whole array.

  The grid is 32 row blocks by 4 column tiles, visited row-major: point `t` is row block `t / 4`, column tile `t % 4`.
  The query window's block at `t` is rows `1024·(t/4) …` of the query array, the candidate window's block rows
  `2048·(t%4) …` of the candidate array, and the output window's block rows `1024·(t/4) …` of the result column: a
  block's coordinate is always the block index times the block's extent plus the coordinate inside the block, and
  the three index maps are decided once over the grid's 128 points.
-/
import proofs.«127728_j84224308674625_1_alg».proof.Proof.Gen.KernelIdeal.Frame
import Idealize.ShloMosaic.Lib.Pipeline.Value
import Idealize.ShloMosaic.Lib.ValueIdx

noncomputable section

namespace Cert.KernelIdeal.BlockRows

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The input blocks at a point and the arrays the region finds, at their literal types. -/
abbrev qblk (c : Dev nD) (t : Fin cfg0.N) : Vec F S1024x3 .f32 := iblk m c 0 t
abbrev pblk (c : Dev nD) (t : Fin cfg0.N) : Vec F S2048x3 .f32 := iblk m c 1 t
abbrev qarr (c : Dev nD) : Vec F S32768x3 .f32 := V m c main_v0
abbrev parr (c : Dev nD) : Vec F S8192x3 .f32 := V m c main_arg1

/-- Row `r` of the row block point `t` works on, as a row of the query array; -/
def qRow (t : Fin cfg0.N) (r : Fin 1024) : Fin 32768 :=
  ⟨1024 * (t.val / 4) + r.val, by
    have hN : cfg0.N = 128 := N_0
    have := t.isLt; have := r.isLt; omega⟩

/-- candidate `c` of the column tile point `t` works on, as a row of the candidate array. -/
def pRow (t : Fin cfg0.N) (c : Fin 2048) : Fin 8192 :=
  ⟨2048 * (t.val % 4) + c.val, by have := c.isLt; omega⟩

theorem qRow_val (t : Fin cfg0.N) (r : Fin 1024) : (qRow t r).val = 1024 * (t.val / 4) + r.val := rfl
theorem pRow_val (t : Fin cfg0.N) (c : Fin 2048) : (pRow t c).val = 2048 * (t.val % 4) + c.val := rfl

/-- The index maps over the grid: the query and output windows follow the row block, the candidate window the tile. -/
theorem index_q : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem index_p : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem index_o : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- The query block's entry `(r, k)` is the query array's entry `(1024·(t/4) + r, k)`. -/
theorem qblk_apply (c : Dev nD) (t : Fin cfg0.N) (r : Fin 1024) (k : Fin 3) :
    qblk m c t (ix2 r k) = qarr m c (ix2 (qRow t r) k) := by
  have hi := index_q t
  unfold qblk iblk
  rw [View.read_apply]
  show V m c main_v0 _ = V m c main_v0 _
  congr 1
  funext a
  apply Fin.ext
  match a with
  | ⟨0, _⟩ => show win0_0.index t 0 * 1024 + 1 * r.val = 1024 * (t.val / 4) + r.val; rw [hi.1]; omega
  | ⟨1, _⟩ => show win0_0.index t 1 * 3 + 1 * k.val = k.val; rw [hi.2]; omega

/-- The candidate block's entry `(c', k)` is the candidate array's entry `(2048·(t%4) + c', k)`. -/
theorem pblk_apply (c : Dev nD) (t : Fin cfg0.N) (c' : Fin 2048) (k : Fin 3) :
    pblk m c t (ix2 c' k) = parr m c (ix2 (pRow t c') k) := by
  have hi := index_p t
  unfold pblk iblk
  rw [View.read_apply]
  show V m c main_arg1 _ = V m c main_arg1 _
  congr 1
  funext a
  apply Fin.ext
  match a with
  | ⟨0, _⟩ => show win0_1.index t 0 * 2048 + 1 * c'.val = 2048 * (t.val % 4) + c'.val; rw [hi.1]; omega
  | ⟨1, _⟩ => show win0_1.index t 1 * 3 + 1 * k.val = k.val; rw [hi.2]; omega

end Cert.KernelIdeal.BlockRows

end
-- ==== Proof.Accumulate.lean ====
/-
  The accumulator from one grid point to the next.

  The generated frame states what the output block's buffer and the carried scratch hold after each point by
  recursion on the point over its three control cases. Put together with the cases' values: after a first column tile
  (`t % 4 = 0`) the accumulator is the update of the reset block by the point's two input blocks; after any later tile
  it is the update of what the point before left; and at a last tile (`t % 4 = 3`) the output block holds that same
  accumulator. Generic in the float instance.
-/
import proofs.«127728_j84224308674625_1_alg».proof.Proof.Gen.KernelIdeal.Frame
import proofs.«127728_j84224308674625_1_alg».proof.Proof.CaseValues
import proofs.«127728_j84224308674625_1_alg».proof.Proof.BlockRows

noncomputable section

namespace Cert.KernelIdeal.Accumulate

open Cert.KernelIdeal Cert.KernelIdeal.Gen Idealize.ShloMosaic Idealize.ShloMosaic.TcCoe Idealize.SL.Sem
open Cert.KernelIdeal.BlockRows Cert.KernelIdeal.CaseValues

variable {F : FTy → Type} [FloatOps F]
variable (m : (ℓ : Loc nD τ sig) → Buf (Elt F) ℓ)

/-- The carried accumulator and the output block's buffer after the point at position `n`. -/
abbrev accAt (c : Dev nD) (n : ℕ) (hn : n < cfg0.N) : Vec F S1024x1 .f32 := (outsAt0 m c n hn).2
abbrev outAt (c : Dev nD) (n : ℕ) (hn : n < cfg0.N) : Vec F S1024x1 .f32 := (outsAt0 m c n hn).1

/-- After a first column tile: the update of the reset block. -/
theorem acc_first (c : Dev nD) (t : Fin cfg0.N) (h0 : t.val % 4 = 0) :
    accAt m c t.val t.isLt = k0_pay2 (qblk m c t) (pblk m c t) (k0_pay1 (F := F)) := by
  have h1 : ¬t.val % 4 = 3 := by omega
  unfold accAt
  rw [outsAt0_A m c t h0 h1]
  dsimp only
  exact scratch_first (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After any later tile: the update of what the point before left. -/
theorem acc_next (c : Dev nD) (t : Fin cfg0.N) (h0 : ¬t.val % 4 = 0) :
    accAt m c t.val t.isLt
      = k0_pay2 (qblk m c t) (pblk m c t) (accAt m c (t.val - 1) (Nat.lt_of_le_of_lt (Nat.sub_le _ _) t.isLt)) := by
  unfold accAt
  by_cases h1 : t.val % 4 = 3
  · rw [outsAt0_C m c t h0 h1]
    dsimp only
    exact scratch_last (F := F) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_mid (F := F) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a last tile the output block holds the accumulator. -/
theorem out_eq_acc (c : Dev nD) (t : Fin cfg0.N) (h1 : t.val % 4 = 3) :
    outAt m c t.val t.isLt = accAt m c t.val t.isLt := by
  have h0 : ¬t.val % 4 = 0 := by omega
  unfold outAt accAt
  rw [outsAt0_C m c t h0 h1]
  dsimp only
  exact (out_last (F := F) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (scratch_last (F := F) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Accumulate

end
-- ==== Proof.NearestDist.lean ====
/-
  The arithmetic the two programs share, free of either program's text.

  * `sqd q p`: the squared distance between two points of three coordinates in its expanded form
    `(|q|² + |p|²) − 2·(q·p)`, cut off below at zero; the factor two and the zero are the f32 words both programs
    print, read as extended reals, so neither is ever evaluated.
  * The nearest-neighbour distance of a row is the minimum of `sqd` over 8192 candidate points. One program takes
    it in one pass; the other takes the minimum of each tile of 2048 candidates and folds the four tile minima
    into an accumulator that starts at the word `a` every fold starts from. On a linear order both are
    characterised by their lower bounds: `z` is below the accumulator after tile `j` exactly when it is below `a`
    and below every candidate of the tiles up to `j` (`le_min_tile_iff`, one tile's step), and a value with that
    property for all four tiles IS the one-pass minimum (`eq_fold_min_of_le_iff`). Nothing is asked of `a`, and no
    entry need be finite: `min` on the extended reals is a lattice operation.
-/
import Idealize.ShloMosaic.PureOps.Ideal
import Mathlib.Data.Finset.Fold

noncomputable section

namespace Cert.NearestDist

open Idealize.ShloMosaic

/-- `(|q|² + |p|²) − 2·(q·p)`, cut off below at zero: the clamped squared distance between `q` and `p`. -/
def sqd (q p : Fin 3 → EReal) : EReal :=
  max (((∑ k : Fin 3, q k * q k) + (∑ k : Fin 3, p k * p k))
        - Ideal.ofBits .f32 0x40000000#32 * (∑ k : Fin 3, q k * p k))
      (Ideal.ofBits .f32 0x00000000#32)

/-- Before the first tile the accumulator is the starting word itself: below it, and no candidate seen yet. -/
theorem le_start_iff (a : EReal) (f : Fin 8192 → EReal) (z : EReal) :
    z ≤ a ↔ z ≤ a ∧ ∀ C : Fin 8192, C.val < 2048 * 0 → z ≤ f C :=
  ⟨fun h => ⟨h, fun C hC => absurd hC (by omega)⟩, fun h => h.1⟩

/-- One tile's step. If the lower bounds of `prev` are those of `a` and of the candidates before tile `j`, the lower
    bounds of `min prev (tile j's minimum)` are those of `a` and of the candidates up to the end of tile `j`: a
    candidate below `2048·(j+1)` is either before the tile or the tile's entry `C − 2048·j`. -/
theorem le_min_tile_iff (a : EReal) (f : Fin 8192 → EReal) (j : ℕ) (hj : j < 4) (prev z : EReal)
    (hprev : z ≤ prev ↔ z ≤ a ∧ ∀ C : Fin 8192, C.val < 2048 * j → z ≤ f C) :
    z ≤ min prev (Finset.univ.fold min a fun c : Fin 2048 => f ⟨2048 * j + c.val, by have := c.isLt; omega⟩)
      ↔ z ≤ a ∧ ∀ C : Fin 8192, C.val < 2048 * (j + 1) → z ≤ f C := by
  rw [le_min_iff, hprev, Finset.le_fold_min]
  constructor
  · rintro ⟨⟨ha, h1⟩, -, h2⟩
    refine ⟨ha, fun C hC => ?_⟩
    by_cases hlt : C.val < 2048 * j
    · exact h1 C hlt
    · have hw : C.val - 2048 * j < 2048 := by omega
      have h3 := h2 ⟨C.val - 2048 * j, hw⟩ (Finset.mem_univ _)
      have e : (⟨2048 * j + (⟨C.val - 2048 * j, hw⟩ : Fin 2048).val, by have := C.isLt; omega⟩ : Fin 8192) = C :=
        Fin.ext (by show 2048 * j + (C.val - 2048 * j) = C.val; omega)
      rw [e] at h3
      exact h3
  · rintro ⟨ha, h⟩
    exact ⟨⟨ha, fun C hC => h C (by omega)⟩, ha, fun c _ => h _ (by have := c.isLt; show 2048 * j + c.val < _; omega)⟩

/-- After the fourth tile the accumulator is the one-pass minimum over all 8192 candidates from the same start. -/
theorem eq_fold_min_of_le_iff (a out : EReal) (f : Fin 8192 → EReal)
    (h : ∀ z, z ≤ out ↔ z ≤ a ∧ ∀ C : Fin 8192, C.val < 2048 * (3 + 1) → z ≤ f C) :
    out = Finset.univ.fold min a f :=
  eq_of_forall_le_iff fun z => by
    rw [h z, Finset.le_fold_min]
    exact and_congr_right fun _ =>
      ⟨fun h C _ => h C (by have := C.isLt; omega), fun h C _ => h C (Finset.mem_univ _)⟩

end Cert.NearestDist

end
-- ==== Proof.TileMin.lean ====
/-
  The kernel body's arithmetic at one grid point, read at an entry.

  At a point the body holds a block `x0` of 1024 query points and a block `x1` of 2048 candidate points, three
  coordinates each, and the accumulator column `xs` of 1024 entries. It forms, for row `r` and candidate `c`,
  `(|x0 r|² + |x1 c|²) − 2·(x0 r · x1 c)` cut off at zero (`sqd`), takes each row's minimum over the 2048 candidates
  starting from the word `0x7F800000`, and stores `min (xs r) (that minimum)` (`tileStep_apply`). The reset the
  first column tile does stores that same word in every entry (`reset_apply`).

  The steps that are not entrywise: a row's sum of three squares (`multi_reduction <add>` over the coordinate axis:
  the sum over `Fin 3`), the cross term (the matrix product of `x0` with `x1` contracted over BOTH operands'
  coordinate axis, into a zero accumulator: `∑ k, x0 (r, k) · x1 (c, k)`), a row's minimum (`multi_reduction
  <minimumf>`: the fold of `min` over the row's 2048 entries), and the keepdims layout steps: a column `[a] → [a, 1]`, a
  row `[b] → [1, b]`, and their broadcasts to `[a, b]`.
-/
import proofs.«127728_j84224308674625_1_alg».proof.Proof.Gen.KernelIdeal.Skeleton
import proofs.«127728_j84224308674625_1_alg».proof.Proof.NearestDist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileMin

open Cert.KernelIdeal Cert.KernelIdeal.Gen Idealize.ShloMosaic Idealize.ShloMosaic.ValueIdx Cert.NearestDist

/-! ## Keepdims layout steps read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions over one axis, at a row -/

/-- A query block's row sum: the sum of the row's three entries. -/
theorem rowSum_q (src : FVec Ideal S1024x3 .f32) (h : S1024x3.Reduces [1] S1024) (hφ : FKind.Formats .f32)
    (hacc : (0x00000000#32 : BitVec 32) = 0x00000000#32) (r : Fin 1024) :
    multiReduction .add [1] S1024 src 0x00000000#32 h hφ hacc (ix1 r) = ∑ k : Fin 3, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A candidate block's row sum. -/
theorem rowSum_p (src : FVec Ideal S2048x3 .f32) (h : S2048x3.Reduces [1] S2048) (hφ : FKind.Formats .f32)
    (hacc : (0x00000000#32 : BitVec 32) = 0x00000000#32) (c : Fin 2048) :
    multiReduction .add [1] S2048 src 0x00000000#32 h hφ hacc (ix1 c) = ∑ k : Fin 3, src (ix2 c k) := by
  refine (Ideal.multiReduction_add_single src 0x00000000#32 h hφ hacc (ix1 c)).trans ?_
  refine Finset.sum_congr rfl fun k _ => congrArg src (funext fun a => Fin.ext ?_)
  match a with
  | ⟨0, _⟩ => rfl
  | ⟨1, _⟩ => rfl

/-- A row's minimum over the tile's 2048 candidates: the fold of `min` from the starting word over the row. -/
theorem rowMin_tile (src : FVec Ideal S1024x2048 .f32) (h : S1024x2048.Reduces [1] S1024) (hφ : FKind.Formats .f32)
    (hacc : (0x7F800000#32 : BitVec 32) = 0x7F800000#32) (r : Fin 1024) :
    multiReduction .minimumf [1] S1024 src 0x7F800000#32 h hφ hacc (ix1 r)
      = Finset.univ.fold min (Ideal.ofBits .f32 0x7F800000#32) (fun c : Fin 2048 => src (ix2 r c)) := by
  refine (multiReduction_minimumf_eq_fold src 0x7F800000#32 h hφ hacc (ix1 r)).trans ?_
  refine (h.fold_filter_drop_single FloatOps.minimumf _ src (ix1 r)).trans ?_
  show Finset.univ.fold min (Ideal.ofBits .f32 0x7F800000#32) (src ∘ h.lift (ix1 r)) = _
  refine congrArg (fun f => Finset.univ.fold min (Ideal.ofBits .f32 0x7F800000#32) f) (funext fun c => congrArg src (funext fun a => Fin.ext ?_))
  match a with
  | ⟨0, _⟩ => rfl
  | ⟨1, _⟩ => rfl

/-! ## The cross term: the matrix product contracted over both operands' coordinate axis -/

theorem lhs_cross_0 (i : S1024x2048.Idx) (q : dot_S1024x3_S2048x3_S1024x2048_1_1_0_0_n_n.contr.Idx) :
    (dot_S1024x3_S2048x3_S1024x2048_1_1_0_0_n_n.lhsIdx i q 0).val = (i 0).val := by
  unfold DotDims.lhsIdx
  rw [dif_neg (show ¬(0 : Fin S1024x3.rank) ∈ dot_S1024x3_S2048x3_S1024x2048_1_1_0_0_n_n.lhsBatch by decide), dif_pos (show (0 : Fin S1024x3.rank) ∈ dot_S1024x3_S2048x3_S1024x2048_1_1_0_0_n_n.lhsNonContracting by decide)]
  rfl
theorem lhs_cross_1 (i : S1024x2048.Idx) (q : dot_S1024x3_S2048x3_S1024x2048_1_1_0_0_n_n.contr.Idx) :
    (dot_S1024x3_S2048x3_S1024x2048_1_1_0_0_n_n.lhsIdx i q 1).val = (q ⟨0, by decide⟩).val :=
  dot_S1024x3_S2048x3_S1024x2048_1_1_0_0_n_n.lhsIdx_val_of_single rfl i q
theorem rhs_cross_0 (i : S1024x2048.Idx) (q : dot_S1024x3_S2048x3_S1024x2048_1_1_0_0_n_n.contr.Idx) :
    (dot_S1024x3_S2048x3_S1024x2048_1_1_0_0_n_n.rhsIdx i q 0).val = (i 1).val := by
  unfold DotDims.rhsIdx
  rw [dif_neg (show ¬(0 : Fin S2048x3.rank) ∈ dot_S1024x3_S2048x3_S1024x2048_1_1_0_0_n_n.rhsBatch by decide), dif_pos (show (0 : Fin S2048x3.rank) ∈ dot_S1024x3_S2048x3_S1024x2048_1_1_0_0_n_n.rhsNonContracting by decide)]
  rfl
theorem rhs_cross_1 (i : S1024x2048.Idx) (q : dot_S1024x3_S2048x3_S1024x2048_1_1_0_0_n_n.contr.Idx) :
    (dot_S1024x3_S2048x3_S1024x2048_1_1_0_0_n_n.rhsIdx i q 1).val = (q ⟨0, by decide⟩).val :=
  dot_S1024x3_S2048x3_S1024x2048_1_1_0_0_n_n.rhsIdx_val_of_single rfl i q

/-- The product of a query block with a candidate block into the zero splat, at `(r, c)`: the two rows' inner product. -/
theorem cross_apply (x0 : FVec Ideal S1024x3 .f32) (x1 : FVec Ideal S2048x3 .f32) (prec : Option ContractPrecision)
    (r : Fin 1024) (c : Fin 2048) :
    matmul dot_S1024x3_S2048x3_S1024x2048_1_1_0_0_n_n prec x0 x1 (constant S1024x2048 .f32 0x00000000#32) (ix2 r c)
      = ∑ k : Fin 3, x0 (ix2 r k) * x1 (ix2 c k) := by
  refine (Ideal.matmul_constant_zero_apply dot_S1024x3_S2048x3_S1024x2048_1_1_0_0_n_n prec x0 x1 (ix2 r c)).trans ?_
  rw [← Equiv.sum_comp (contrEquiv1 dot_S1024x3_S2048x3_S1024x2048_1_1_0_0_n_n 3 rfl rfl).symm]
  refine Finset.sum_congr rfl fun k _ => ?_
  have hk := contrEquiv1_symm_val dot_S1024x3_S2048x3_S1024x2048_1_1_0_0_n_n 3 rfl rfl k
  have el : dot_S1024x3_S2048x3_S1024x2048_1_1_0_0_n_n.lhsIdx (ix2 r c) ((contrEquiv1 dot_S1024x3_S2048x3_S1024x2048_1_1_0_0_n_n 3 rfl rfl).symm k) = ix2 r k := funext fun a => Fin.ext (by
    match a with
    | ⟨0, _⟩ => exact lhs_cross_0 _ _
    | ⟨1, _⟩ => exact (lhs_cross_1 _ _).trans hk)
  have er : dot_S1024x3_S2048x3_S1024x2048_1_1_0_0_n_n.rhsIdx (ix2 r c) ((contrEquiv1 dot_S1024x3_S2048x3_S1024x2048_1_1_0_0_n_n 3 rfl rfl).symm k) = ix2 c k := funext fun a => Fin.ext (by
    match a with
    | ⟨0, _⟩ => exact rhs_cross_0 _ _
    | ⟨1, _⟩ => exact (rhs_cross_1 _ _).trans hk)
  rw [el, er]

/-! ## The two stores of the body, at an entry -/

/-- The reset stores the starting word in every entry. -/
theorem reset_apply (y : S1024x1.Idx) : k0_pay1 (F := Ideal) y = Ideal.ofBits .f32 0x7F800000#32 := by
  unfold k0_pay1
  simp only [shapeCast_self]
  rfl

/-- The update stores, in row `r`, the smaller of the accumulator's entry and the row's minimum over the tile's 2048
    candidates of the clamped squared distance between the row's query point and the candidate. -/
theorem tileStep_apply (x0 : FVec Ideal S1024x3 .f32) (x1 : FVec Ideal S2048x3 .f32) (xs : FVec Ideal S1024x1 .f32)
    (r : Fin 1024) :
    k0_pay2 (F := Ideal) x0 x1 xs (ix2 r (0 : Fin 1))
      = min (xs (ix2 r (0 : Fin 1)))
          (Finset.univ.fold min (Ideal.ofBits .f32 0x7F800000#32)
            fun c : Fin 2048 => sqd (fun k => x0 (ix2 r k)) (fun k => x1 (ix2 c k))) := by
  unfold k0_pay2
  simp only [shapeCast_self]
  refine congrArg (min (xs (ix2 r (0 : Fin 1)))) ?_
  refine (shapeCast_a_a1_apply _ _ r 0).trans ?_
  refine (rowMin_tile _ _ _ _ r).trans ?_
  refine congrArg (fun f => Finset.univ.fold min (Ideal.ofBits .f32 0x7F800000#32) f) (funext fun c => ?_)
  refine congrArg (fun z => max z (Ideal.ofBits .f32 0x00000000#32)) ?_
  refine congrArg₂ (fun a b => a - Ideal.ofBits .f32 0x40000000#32 * b) ?_ (cross_apply x0 x1 _ r c)
  refine congrArg₂ (fun a b : EReal => a + b) ?_ ?_
  · refine (broadcastTo_a1_ab_apply _ _ r c).trans ?_
    refine (shapeCast_a_a1_apply _ _ r 0).trans ?_
    exact rowSum_q _ _ _ _ r
  · refine (broadcastTo_1b_ab_apply _ _ r c).trans ?_
    refine (shapeCast_a_1a_apply _ _ 0 c).trans ?_
    exact rowSum_p _ _ _ _ c

end Cert.KernelIdeal.TileMin

end
-- ==== Proof.RunningMin.lean ====
/-
  The accumulator is the running minimum of a row's distances.

  Fix a core and a row `r` of the row block a grid point `t` works on; it is row `1024·(t/4) + r` of the query array, and
  its clamped squared distances to the 8192 candidates are one function `dists` of the candidate's index. By
  induction on the grid position, the accumulator's entry for the row after the point at position `n` has exactly
  these lower bounds: the starting word, and every candidate of the column tiles up to tile `n % 4`. At a first tile
  the update meets the reset block (the starting word itself); at a later tile it meets what the point before left,
  which is the same row's accumulator one tile earlier (`n` and `n − 1` are in one row block when `n % 4 ≠ 0`). The
  tile's candidates are the candidate array's rows `2048·(n%4) …`. So at a last tile the output block's entry is the
  one-pass minimum over all 8192 candidates from the same starting word.
-/
import proofs.«127728_j84224308674625_1_alg».proof.Proof.Accumulate
import proofs.«127728_j84224308674625_1_alg».proof.Proof.TileMin
import proofs.«127728_j84224308674625_1_alg».proof.Proof.NearestDist

noncomputable section

namespace Cert.KernelIdeal.RunningMin

open Cert.KernelIdeal Cert.KernelIdeal.Gen Idealize.ShloMosaic Idealize.ShloMosaic.TcCoe Idealize.SL.Sem
open Idealize.ShloMosaic.ValueIdx
open Cert.KernelIdeal.BlockRows Cert.KernelIdeal.Accumulate Cert.KernelIdeal.TileMin Cert.NearestDist

variable (m : (ℓ : Loc nD τ sig) → Buf (Elt Ideal) ℓ)

/-- The word every minimum starts from, as both programs print it. -/
abbrev startW : EReal := Ideal.ofBits .f32 0x7F800000#32

/-- The clamped squared distances from row `R` of the query array to every row of the candidate array. -/
def dists (c : Dev nD) (R : Fin 32768) : Fin 8192 → EReal :=
  fun C => sqd (fun k => qarr m c (ix2 R k)) (fun k => parr m c (ix2 C k))

/-- A tile's row minimum, over the blocks, is the minimum of the row's distances to the tile's candidates. -/
theorem tile_fold_eq (c : Dev nD) (t : Fin cfg0.N) (r : Fin 1024) :
    (Finset.univ.fold min startW fun c' : Fin 2048 => sqd (fun k => qblk m c t (ix2 r k)) (fun k => pblk m c t (ix2 c' k)))
      = Finset.univ.fold min startW fun c' : Fin 2048 =>
          dists m c (qRow t r) ⟨2048 * (t.val % 4) + c'.val, by have := c'.isLt; omega⟩ := by
  refine congrArg (fun f => Finset.univ.fold min startW f) (funext fun c' => ?_)
  unfold dists
  rw [show (fun k => qblk m c t (ix2 r k)) = fun k => qarr m c (ix2 (qRow t r) k) from funext fun k => qblk_apply m c t r k,
    show (fun k => pblk m c t (ix2 c' k)) = fun k => parr m c (ix2 (pRow t c') k) from funext fun k => pblk_apply m c t c' k]
  rfl

/-- After a first column tile. -/
theorem first_le_iff (c : Dev nD) (t : Fin cfg0.N) (h0 : t.val % 4 = 0) (r : Fin 1024) (z : EReal) :
    z ≤ accAt m c t.val t.isLt (ix2 r (0 : Fin 1)) ↔
      z ≤ startW ∧ ∀ C : Fin 8192, C.val < 2048 * (t.val % 4 + 1) → z ≤ dists m c (qRow t r) C := by
  have e : accAt m c t.val t.isLt (ix2 r (0 : Fin 1))
      = min startW (Finset.univ.fold min startW fun c' : Fin 2048 =>
          dists m c (qRow t r) ⟨2048 * (t.val % 4) + c'.val, by have := c'.isLt; omega⟩) :=
    ((congrFun (acc_first m c t h0) (ix2 r (0 : Fin 1))).trans
      (tileStep_apply (qblk m c t) (pblk m c t) (k0_pay1 (F := Ideal)) r)).trans
      (congrArg₂ min (reset_apply (ix2 r (0 : Fin 1))) (tile_fold_eq m c t r))
  rw [e]
  exact le_min_tile_iff startW (dists m c (qRow t r)) (t.val % 4) (by omega) startW z
    (by rw [h0]; exact le_start_iff startW _ z)

/-- After every point: the accumulator's lower bounds are the starting word and the candidates seen so far. -/
theorem acc_le_iff (c : Dev nD) : ∀ (n : ℕ) (hn : n < cfg0.N) (r : Fin 1024) (z : EReal),
    z ≤ accAt m c n hn (ix2 r (0 : Fin 1)) ↔
      z ≤ startW ∧ ∀ C : Fin 8192, C.val < 2048 * (n % 4 + 1) → z ≤ dists m c (qRow ⟨n, hn⟩ r) C
  | 0, hn, r, z => first_le_iff m c ⟨0, hn⟩ rfl r z
  | n + 1, hn, r, z => by
    by_cases h0 : (n + 1) % 4 = 0
    · exact first_le_iff m c ⟨n + 1, hn⟩ h0 r z
    · have hn' : n < cfg0.N := Nat.lt_of_succ_lt hn
      have e : accAt m c (n + 1) hn (ix2 r (0 : Fin 1))
          = min (accAt m c n hn' (ix2 r (0 : Fin 1))) (Finset.univ.fold min startW fun c' : Fin 2048 =>
              dists m c (qRow ⟨n + 1, hn⟩ r) ⟨2048 * ((n + 1) % 4) + c'.val, by have := c'.isLt; omega⟩) :=
        ((congrFun (acc_next m c ⟨n + 1, hn⟩ h0) (ix2 r (0 : Fin 1))).trans
          (tileStep_apply (qblk m c ⟨n + 1, hn⟩) (pblk m c ⟨n + 1, hn⟩) (accAt m c n hn') r)).trans
          (congrArg (min (accAt m c n hn' (ix2 r (0 : Fin 1)))) (tile_fold_eq m c ⟨n + 1, hn⟩ r))
      rw [e]
      have ih := acc_le_iff c n hn' r z
      have hj : n % 4 + 1 = (n + 1) % 4 := by omega
      have hR : qRow ⟨n, hn'⟩ r = qRow ⟨n + 1, hn⟩ r :=
        Fin.ext (by show 1024 * (n / 4) + r.val = 1024 * ((n + 1) / 4) + r.val; omega)
      rw [hj, hR] at ih
      exact le_min_tile_iff startW (dists m c (qRow ⟨n + 1, hn⟩ r)) ((n + 1) % 4) (by omega) _ z ih

/-- At a last column tile the output block's entry for the row is the minimum of the row's distances to all 8192
    candidates, taken in one pass from the starting word. -/
theorem out_last_apply (c : Dev nD) (t : Fin cfg0.N) (h1 : t.val % 4 = 3) (r : Fin 1024) :
    outAt m c t.val t.isLt (ix2 r (0 : Fin 1)) = Finset.univ.fold min startW (dists m c (qRow t r)) := by
  rw [out_eq_acc m c t h1]
  exact eq_fold_min_of_le_iff startW _ _ fun z => by
    have h := acc_le_iff m c t.val t.isLt r z
    rw [h1] at h
    exact h

end Cert.KernelIdeal.RunningMin

end
-- ==== Proof.DistField.lean ====
/-
  The field both programs reduce at the end.

  For a query array `Q` of 32768 points, a candidate array `P` of 8192 points and a radius `rad`: at `(b, p)`, the
  square root of the smallest clamped squared distance from query point `4096·b + p` to a candidate, less the radius.
  The minimum is the one-pass fold of `min` from the word `0x7F800000`; the square root is the extended reals' (the
  host operation of both programs). Each program's result is the minimum of this field along `p`, by the same host
  reduction from the same word; neither the square root nor that last reduction is ever opened.
-/
import proofs.«127728_j84224308674625_1_alg».proof.Proof.NearestDist
import Idealize.ShloMosaic.Lib.ValueIdx

noncomputable section

namespace Cert.NearestDist

open Idealize.ShloMosaic Idealize.ShloMosaic.ValueIdx

/-- Query point `R`'s nearest-candidate clamped squared distance. -/
def nearestSq (Q : (⟨2, ![32768, 3]⟩ : Shape).Idx → EReal) (P : (⟨2, ![8192, 3]⟩ : Shape).Idx → EReal) (R : Fin 32768) : EReal :=
  Finset.univ.fold min (Ideal.ofBits .f32 0x7F800000#32) fun C : Fin 8192 => sqd (fun k => Q (ix2 R k)) (fun k => P (ix2 C k))

/-- The distance field: `sqrt (nearestSq (4096·b + p)) − rad` at `(b, p)`. -/
def surface (Q : (⟨2, ![32768, 3]⟩ : Shape).Idx → EReal) (P : (⟨2, ![8192, 3]⟩ : Shape).Idx → EReal) (rad : EReal) :
    (⟨2, ![8, 4096]⟩ : Shape).Idx → EReal :=
  fun i => Ideal.sqrt (nearestSq Q P ⟨(i 0).val * 4096 + (i 1).val, by
    have h0 : (i 0).val < 8 := idx2_lt0 i
    have h1 : (i 1).val < 4096 := idx2_lt1 i
    omega⟩) - rad

end Cert.NearestDist

end
-- ==== Proof.RegionResult.lean ====
/-
  The result column after the region.

  The output window's block is written back only at a last column tile, once per row block; the point `4·b + 3`
  writes rows `1024·b …` of the result column, and these 32 blocks tile it. Each written entry is the row's minimum
  distance over all candidates (the running minimum after four tiles), so the whole column ends holding
  `nearest`: at row `R`, the minimum over the 8192 candidates of the clamped squared distance from query point `R`.
-/
import proofs.«127728_j84224308674625_1_alg».proof.Proof.RunningMin
import proofs.«127728_j84224308674625_1_alg».proof.Proof.DistField

noncomputable section

namespace Cert.KernelIdeal.RegionResult

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.BlockRows Cert.KernelIdeal.Accumulate Cert.KernelIdeal.RunningMin Cert.NearestDist

variable (m : (ℓ : Loc nD τ sig) → Buf (Elt Ideal) ℓ)

/-- Every query point's nearest-candidate clamped squared distance, as the result column's contents. -/
def nearest (c : Dev nD) : Buf (Elt Ideal) ((c : Thread nD τ).loc main_v1) :=
  fun i : S32768x1.Idx => nearestSq (qarr m c) (parr m c) ⟨(i 0).val, idx2_lt0 i⟩

/-- What a last-tile point writes back is its block of `nearest`: block row `r` is column row `1024·(t/4) + r`. -/
theorem flushed_eq (c : Dev nD) (t : Fin cfg0.N) (hf : (cfg0.win 2).flush t = true) :
    (dats m 0 c).flushed 2 t = ((cfg0.win 2).blk t).view.read (Elt Ideal) (nearest m c) := by
  have h1 : t.val % 4 = 3 := (flush0_2 t).mp hf
  have hi := index_o t
  show (cfg0.win 2).cut (grid0.coords t) ((dats m 0 c).after 2 t) = _
  rw [after0_2]
  refine funext fun (j : S1024x1.Idx) => ?_
  obtain ⟨r, u, rfl⟩ : ∃ (r : Fin 1024) (u : Fin 1), j = ix2 r u := ⟨j 0, j 1, eq_ix2 j⟩
  obtain rfl : u = 0 := Subsingleton.elim _ _
  rw [View.read_apply]
  show outAt m c t.val t.isLt (ix2 r (0 : Fin 1)) = _
  refine (out_last_apply m c t h1 r).trans ?_
  show nearestSq (qarr m c) (parr m c) (qRow t r) = nearestSq (qarr m c) (parr m c) _
  refine congrArg (nearestSq (qarr m c) (parr m c)) (Fin.ext ?_)
  show 1024 * (t.val / 4) + r.val = win0_2.index t 0 * 1024 + 1 * r.val
  rw [hi.1]; omega

/-- An index of the column is in point `t`'s block iff each coordinate is in the block's range on its axis. -/
theorem mem_blk (t : Fin cfg0.N) (i : S32768x1.Idx) :
    i ∈ ((cfg0.win 2).blk t).view.set ↔
      ∀ a : Fin 2, win0_2.index t a * S1024x1.size a ≤ (i a).val ∧ (i a).val < win0_2.index t a * S1024x1.size a + S1024x1.size a := by
  show i ∈ ((View.whole main_v1).slice (win0_2.rect t)).set ↔ _
  rw [View.set_slice_whole, Rect.mem_set_unit]
  exact Iff.rfl

/-- Row `R` of the column is written back by the last-tile point of its row block, `4·(R / 1024) + 3`. -/
theorem covered (i : S32768x1.Idx) :
    ∃ t : Fin cfg0.N, (cfg0.win 2).flush t = true ∧ i ∈ ((cfg0.win 2).blk t).view.set := by
  have hi0 : (i 0).val < 32768 := idx2_lt0 i
  have hi1 : (i 1).val < 1 := idx2_lt1 i
  have hN : cfg0.N = 128 := N_0
  obtain ⟨t, ht⟩ : ∃ t : Fin cfg0.N, t.val = 4 * ((i 0).val / 1024) + 3 := ⟨⟨4 * ((i 0).val / 1024) + 3, by omega⟩, rfl⟩
  have hx := index_o t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [hx.1]; omega
  | ⟨1, _⟩ =>
    show win0_2.index t (1 : Fin 2) * 1 ≤ (i 1).val ∧ (i 1).val < win0_2.index t (1 : Fin 2) * 1 + 1
    rw [hx.2]; omega

/-- The result column after the region's last point. -/
theorem final (c : Dev nD) : (dats m 0 c).arrAt 2 cfg0.N = nearest m c :=
  (dats m 0 c).arrAt_eq_of_cover 2 (nearest m c) (flushed_eq m c) (covered)

end Cert.KernelIdeal.RegionResult

end
-- ==== Proof.KernelTail.lean ====
/-
  The kernel program after the region, and its run.

  After the region the program flattens the result column, takes the square root, subtracts the radius, reshapes
  to `[8, 4096]` and reduces along the second axis by `min` from the word `0x7F800000`. With the column at
  `nearest`, the field entering that last reduction is `surface` of the arrays the region found: entry `(b, p)`
  is row `4096·b + p` of the flattened column. The array the query window reads is the reshape of the first
  argument (the one host operation before the region); the candidate array is the second argument itself.
-/
import proofs.«127728_j84224308674625_1_alg».proof.Proof.RegionResult
import Idealize.ShloMosaic.Lib.StableHlo.Run

noncomputable section

namespace Cert.KernelIdeal.KernelTail

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.BlockRows Cert.KernelIdeal.RegionResult Cert.NearestDist

variable (m : (ℓ : Loc nD τ sig) → Buf (Elt Ideal) ℓ) (ρ : Dev nD → PrngReg)

/-- The tail's middle, for ANY column `N` and scalar `rad`, at `(b, p)`: `sqrt (N (4096·b + p)) − rad`. -/
theorem tail_field (N : FVec Ideal S32768x1 .f32) (rad : FVec Ideal S_ .f32) (b : Fin 8) (p : Fin 4096) :
    shapeCast S8x4096 (subf (Host.sqrt (shapeCast S32768 N shapeCasts_S32768x1_S32768))
        (broadcastInDim S32768 ![] bcast_S_S32768 rad)) shapeCasts_S32768_S8x4096 (ix2 b p)
      = Ideal.sqrt (N (ix2 (⟨b.val * 4096 + p.val, by have := b.isLt; have := p.isLt; omega⟩ : Fin 32768) (0 : Fin 1)))
          - rad ix0 := by
  refine (shapeCast_apply _ shapeCasts_S32768_S8x4096 (ix2 b p)
    (ix1 (⟨b.val * 4096 + p.val, by have := b.isLt; have := p.isLt; omega⟩ : Fin 32768))
    (by rewrite [Shape.rowMajor_val_one, Shape.rowMajor_val_two]; rfl)).trans ?_
  refine congrArg₂ (fun x y : EReal => Ideal.sqrt x - y) ?_ ?_
  · exact shapeCast_apply N shapeCasts_S32768x1_S32768 _ (ix2 _ (0 : Fin 1))
      (by rewrite [Shape.rowMajor_val_two, Shape.rowMajor_val_one]; show (b.val * 4096 + p.val) * 1 + 0 = b.val * 4096 + p.val; omega)
  · exact broadcastInDim_apply _ bcast_S_S32768 rad _ ix0 (fun a => a.elim0)

/-- What the kernel program returns. -/
def result (c : Dev nD) : Buf (Elt Ideal) ((c : Thread nD τ).loc main_v7) :=
  (Host.reduce (FloatOps.minimumf (F := Ideal) (φ := .f32)) (surface (qarr m c) (parr m c) (m ((c : Thread nD τ).loc main_arg2) ix0))
    (constant (F := Ideal) S_ .f32 0x7F800000#32) reducesTo_S8x4096_S8_d1 h_S_ : FVec Ideal S8 .f32)

/-- The operations after the region, run on the region's arrays, leave the result. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have e1 : Pipeline.withArrays (cfgs 0).spec c (V0 m c) (fun w => (dats m 0 c).arrAt w (cfgs 0).N) (Proc.devRef .tc main_v1)
      = nearest m c :=
    (Pipeline.withArrays_arr spec0 launch0.win.arr_inj c _ _ 2).trans (final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e1, e2]
  unfold result
  refine congrArg (fun X : FVec Ideal S8x4096 .f32 => (Host.reduce (FloatOps.minimumf (F := Ideal) (φ := .f32)) X
      (constant (F := Ideal) S_ .f32 0x7F800000#32) reducesTo_S8x4096_S8_d1 h_S_ : FVec Ideal S8 .f32))
    (funext fun (i : S8x4096.Idx) => ?_)
  obtain ⟨b, p, rfl⟩ : ∃ (b : Fin 8) (p : Fin 4096), i = ix2 b p := ⟨i 0, i 1, eq_ix2 i⟩
  exact tail_field (nearest m c) (m ((c : Thread nD τ).loc main_arg2)) b p

/-- The query window's array is the first argument reshaped; -/
theorem qarr_eq (c : Dev nD) :
    qarr m c = shapeCast S32768x3 (m ((c : Thread nD τ).loc main_arg0)) shapeCasts_S8x4096x3_S32768x3 := by
  show StableHlo.after hostOps0 (fun b => m (c, b)) (Proc.devRef .tc main_v0) = _
  after_results
  rfl

/-- the candidate window's array is the second argument. -/
theorem parr_eq (c : Dev nD) : parr m c = m ((c : Thread nD τ).loc main_arg1) := V_main_arg1 m c

/-- The kernel program's run: every weakly fair execution terminates with the result in `main_v7` and the three
    arguments as launched. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelTail

end
-- ==== Proof.RefRows.lean ====
/-
  The reference, read at an entry.

  The reference forms the whole 32768 × 8192 matrix of clamped squared distances — row sums of squares broadcast
  along rows and columns, less twice the product of the query array with the transposed candidate array — and
  reduces each row by `min` from the word `0x7F800000`; then the square root, the reshape to `[8, 4096]`, the
  radius subtracted. Entry `(R, C)` of the matrix is `sqd` of query row `R` and candidate row `C` (the sums from
  the zero word are the bare sums), so the field before the last reduction is `surface`.
-/
import proofs.«127728_j84224308674625_1_alg».proof.Proof.Gen.ReferenceIdeal.Read
import proofs.«127728_j84224308674625_1_alg».proof.Proof.DistField
import Idealize.ShloMosaic.PureOps.Ideal.Laws

noncomputable section

namespace Cert.ReferenceIdeal.RefRows

open Cert.ReferenceIdeal Cert.ReferenceIdeal.Gen Cert.ReferenceIdeal.Read Idealize.ShloMosaic Idealize.ShloMosaic.ValueIdx
open Cert.NearestDist

variable (x0 : (⟨S8x4096x3, .f32⟩ : BufTy).Contents (Elt Ideal)) (x1 : (⟨S8192x3, .f32⟩ : BufTy).Contents (Elt Ideal))
  (x2 : (⟨S_, .f32⟩ : BufTy).Contents (Elt Ideal))

/-! The composed index maps of the layout steps, at `(R, C)`. -/

theorem idx_qsum (R : Fin 32768) (C : Fin 8192) (k : Fin 3) :
    idx_main_v2 (idx_main_v3 (idx_main_v7 (ix2 R C))) k = ix2 R k :=
  funext fun a => Fin.ext (by match a with | ⟨0, _⟩ => rfl | ⟨1, _⟩ => rfl)
theorem idx_psum (R : Fin 32768) (C : Fin 8192) (k : Fin 3) :
    idx_main_v5 (idx_main_v6 (idx_main_v8 (ix2 R C))) k = ix2 C k :=
  funext fun a => Fin.ext (by match a with | ⟨0, _⟩ => rfl | ⟨1, _⟩ => rfl)
theorem idx_lhs (R : Fin 32768) (C : Fin 8192) (k : Fin 3) : lidx_main_v11 (ix2 R C) k = ix2 R k :=
  funext fun a => Fin.ext (by match a with | ⟨0, _⟩ => rfl | ⟨1, _⟩ => rfl)
theorem idx_rhs (R : Fin 32768) (C : Fin 8192) (k : Fin 3) : idx_main_v10 (ridx_main_v11 (ix2 R C) k) = ix2 C k :=
  funext fun a => Fin.ext (by match a with | ⟨0, _⟩ => rfl | ⟨1, _⟩ => rfl)

/-- A sum from the zero word is the bare sum. -/
theorem zero_word_add (s : EReal) : Ideal.ofBits .f32 0x00000000#32 + s = s := by
  rw [Ideal.ofBits_zero_f32, zero_add]

/-- Entry `(R, C)` of the distance matrix. -/
theorem dist_apply (R : Fin 32768) (C : Fin 8192) :
    val_main_v16 (F := Ideal) x0 x1 (ix2 R C)
      = sqd (fun k => val_main_v0 (F := Ideal) x0 (ix2 R k)) (fun k => x1 (ix2 C k)) := by
  rw [val_main_v16_apply, val_main_v14_apply, val_main_v9_apply, val_main_v7_apply, val_main_v3_apply, val_main_v2_apply,
    val_main_v8_apply, val_main_v6_apply, val_main_v5_apply, val_main_v13_apply, val_main_v12_apply, val_main_v11_apply,
    val_main_v15_apply]
  simp only [val_main_v1_apply, val_main_v4_apply, val_main_v10_apply, val_main_cst_apply, val_main_cst_0_apply,
    val_main_cst_1_apply, val_main_cst_2_apply, idx_qsum, idx_psum, idx_lhs, idx_rhs, Ideal.mulf_def, Ideal.addf_def,
    Ideal.subf_def, Ideal.maximumf_def, Ideal.ofBits_def, zero_word_add]
  rfl

/-- The matrix's shape reduces along its rows: the generated shape fact, with the result's one axis. -/
theorem reduces_rows : S32768x8192.Reduces [1] S32768 :=
  ⟨reducesTo_S32768x8192_S32768_d1.1, Nat.one_pos, reducesTo_S32768x8192_S32768_d1.2⟩

/-- The host's row reduction by `min` of ANY 32768 × 8192 matrix, at row `R`: the fold over the row's entries. -/
theorem rowfold (D : FVec Ideal S32768x8192 .f32) (R : Fin 32768) :
    Host.reduce FloatOps.minimumf D (val_main_cst_3 (F := Ideal)) reducesTo_S32768x8192_S32768_d1 h_S_ (ix1 R)
      = Finset.univ.fold min (Ideal.ofBits .f32 0x7F800000#32) (fun C : Fin 8192 => D (ix2 R C)) := by
  refine (Host.reduce_eq_fold_single FloatOps.minimumf D (val_main_cst_3 (F := Ideal)) reducesTo_S32768x8192_S32768_d1
    reduces_rows h_S_ (ix1 R)).trans ?_
  refine congrArg (fun f => Finset.univ.fold min (Ideal.ofBits .f32 0x7F800000#32) f)
    (funext fun C => congrArg D (funext fun a => Fin.ext ?_))
  match a with
  | ⟨0, _⟩ => rfl
  | ⟨1, _⟩ => rfl

/-- A row's minimum over all candidates. -/
theorem rowmin_apply (R : Fin 32768) :
    val_main_v17 (F := Ideal) x0 x1 (ix1 R) = nearestSq (val_main_v0 (F := Ideal) x0) x1 R := by
  unfold val_main_v17
  rw [rowfold]
  unfold nearestSq
  exact congrArg (fun f => Finset.univ.fold min (Ideal.ofBits .f32 0x7F800000#32) f) (funext fun C => dist_apply x0 x1 R C)

/-- The field the reference reduces last is `surface` of the reshaped query array, the candidate array and the radius. -/
theorem field_eq :
    val_main_v21 (F := Ideal) x0 x1 x2 = surface (val_main_v0 (F := Ideal) x0) x1 (x2 ix0) := by
  funext i
  obtain ⟨b, p, rfl⟩ : ∃ (b : Fin 8) (p : Fin 4096), i = ix2 b p := ⟨i 0, i 1, eq_ix2 i⟩
  have e : idx_main_v19 (ix2 b p)
      = ix1 (⟨b.val * 4096 + p.val, by have := b.isLt; have := p.isLt; omega⟩ : Fin 32768) :=
    funext fun a => Fin.ext (by match a with | ⟨0, _⟩ => rfl)
  rw [val_main_v21_apply, val_main_v19_apply, val_main_v18_apply, val_main_v20_apply, e, rowmin_apply]
  simp only [Ideal.subf_def, Ideal.hostUnary_sqrt_def]
  rfl

/-- So the reference returns the minimum along `p` of `surface`, by the host reduction from the starting word. -/
theorem result_eq :
    val_main_v22 (F := Ideal) x0 x1 x2
      = (Host.reduce (FloatOps.minimumf (F := Ideal) (φ := .f32)) (surface (val_main_v0 (F := Ideal) x0) x1 (x2 ix0))
          (constant (F := Ideal) S_ .f32 0x7F800000#32) reducesTo_S8x4096_S8_d1 h_S_ : FVec Ideal S8 .f32) := by
  unfold val_main_v22
  rw [field_eq]
  rfl

end Cert.ReferenceIdeal.RefRows

end
-- ==== Proof.lean ====
/-
  The nearest-neighbour distance field, computed tile by tile, equals the one computed in one pass.

  For 32768 query points (the first argument, reshaped to rows of three coordinates), 8192 candidate points and a
  radius, both programs return, for each of 8 groups of 4096 consecutive query points, the smallest over the group of
  `sqrt(d) − radius`, where `d` is the query point's smallest clamped squared distance to a candidate,
  `max ((|q|² + |p|²) − 2·(q·p)) 0`, all over the extended reals.

  * The reference forms every `d` candidate by candidate and takes each row's minimum in one fold from the word
    `0x7F800000`.
  * The kernel visits a 32 × 4 grid: a block of 1024 query points against a tile of 2048 candidates. It keeps an
    accumulator column across the four tiles of a row block: reset to that word at the first tile, updated at
    every tile by the tile's row minima, copied to the result column at the last tile. By induction on the grid
    position the accumulator's lower bounds are the starting word and every candidate seen so far, so after the fourth
    tile it is the one-pass minimum; `min` on the extended reals is a lattice operation, so no entry need be finite
    and the precondition is never opened. The result column's 32 written blocks tile it.
  * Both programs then take the square root, subtract the radius and reduce each group by the same host reduction from
    the same word; one does so on the flat column and reshapes, the other reshapes first. The field entering that last
    reduction is the same function of the arguments on both sides, and the reduction is never opened.

  No operation of the kernel is replaced when it is read over the extended reals, so that the idealized kernel is the
  kernel's sanctioned reading has nothing to state.
-/
import proofs.«127728_j84224308674625_1_alg».proof.Defs
import proofs.«127728_j84224308674625_1_alg».proof.Proof.Gen.Kernel
import proofs.«127728_j84224308674625_1_alg».proof.Proof.Gen.Kernel.Skeleton
import proofs.«127728_j84224308674625_1_alg».proof.Proof.Gen.Kernel.Launch
import proofs.«127728_j84224308674625_1_alg».proof.Proof.Gen.Kernel.Points
import proofs.«127728_j84224308674625_1_alg».proof.Proof.Gen.Kernel.Frame
import proofs.«127728_j84224308674625_1_alg».proof.Proof.Gen.KernelIdeal
import proofs.«127728_j84224308674625_1_alg».proof.Proof.Gen.KernelIdeal.Skeleton
import proofs.«127728_j84224308674625_1_alg».proof.Proof.Gen.KernelIdeal.Launch
import proofs.«127728_j84224308674625_1_alg».proof.Proof.Gen.KernelIdeal.Points
import proofs.«127728_j84224308674625_1_alg».proof.Proof.Gen.KernelIdeal.Frame
import proofs.«127728_j84224308674625_1_alg».proof.Proof.Gen.ReferenceIdeal
import proofs.«127728_j84224308674625_1_alg».proof.Proof.Gen.ReferenceIdeal.Run
import proofs.«127728_j84224308674625_1_alg».proof.Proof.Gen.ReferenceIdeal.Read
import proofs.«127728_j84224308674625_1_alg».proof.Proof.Gen.Pre_finite_inputs
import proofs.«127728_j84224308674625_1_alg».proof.Proof.KernelTail
import proofs.«127728_j84224308674625_1_alg».proof.Proof.RefRows
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Over the extended reals, from memories that agree on the three arguments, both programs end with the same result:
    the kernel's is the last reduction of `surface` of the arrays its region found (the reshaped first argument and the
    second argument), the reference's the same reduction of `surface` of its own reshape of the first argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelTail.result m c, Cert.KernelIdeal.KernelTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefRows.result_eq, (hagree c).1, (hagree c).2.1,
    (hagree c).2.2]
  show _ = Cert.KernelIdeal.KernelTail.result m c
  unfold Cert.KernelIdeal.KernelTail.result
  rw [Cert.KernelIdeal.KernelTail.qarr_eq, Cert.KernelIdeal.KernelTail.parr_eq]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
